-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S11008x4096 : Shape := ⟨2, ![11008, 4096]⟩
abbrev S1x11008 : Shape := ⟨2, ![1, 11008]⟩
abbrev S11008x256 : Shape := ⟨2, ![11008, 256]⟩
abbrev S256 : Shape := ⟨1, ![256]⟩
abbrev S11008 : Shape := ⟨1, ![11008]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S1x11008 : S_.BroadcastsInDim S1x11008 (![] : Fin 0 → Fin S1x11008.rank)
  reducesTo_S1x11008_S_d0_1 : S1x11008.ReducesTo [0, 1] S_
  bcast_S_S11008x256 : S_.BroadcastsInDim S11008x256 (![] : Fin 0 → Fin S11008x256.rank)
  reducesTo_S11008x256_S_d0_1 : S11008x256.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S8x64x4096 .f32) (main_arg1 : IVec S11008x4096 32) (main_arg2 : FVec F S1x11008 .f32) (main_arg3 : FVec F S11008x256 .f32) (main_arg4 : IVec S256 32) (main_arg5 : FVec F S11008 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S1x11008 .f32 := Host.absf main_arg2
  let main_cst_0 : FVec F S_ .f32 := constant S_ .f32 0x7F800000#32
  let main_v5 : FVec F S1x11008 .f32 := broadcastInDim S1x11008 ![] bcast_S_S1x11008 main_cst_0
  let main_v6 : IVec S1x11008 1 := cmpf .olt main_v4 main_v5
  let main_c_1 : IVec S_ 1 := constantI S_ 1 1#1
  let main_v7 : IVec S_ 1 := (fun x v => Host.reduce IntOp.andi x v reducesTo_S1x11008_S_d0_1 h_S_) main_v6 main_c_1
  let main_v8 : IVec S_ 1 := andi main_v3 main_v7
  let main_v9 : FVec F S11008x256 .f32 := Host.absf main_arg3
  let main_cst_2 : FVec F S_ .f32 := constant S_ .f32 0x7F800000#32
  let main_v10 : FVec F S11008x256 .f32 := broadcastInDim S11008x256 ![] bcast_S_S11008x256 main_cst_2
  let main_v11 : IVec S11008x256 1 := cmpf .olt main_v9 main_v10
  let main_c_3 : IVec S_ 1 := constantI S_ 1 1#1
  let main_v12 : IVec S_ 1 := (fun x v => Host.reduce IntOp.andi x v reducesTo_S11008x256_S_d0_1 h_S_) main_v11 main_c_3
  let main_v13 : IVec S_ 1 := andi main_v8 main_v12
  let main_v14 : FVec F S11008 .f32 := Host.absf main_arg5
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S8x64x4096 : Shape := ⟨3, ![8, 64, 4096]⟩
abbrev S11008x4096 : Shape := ⟨2, ![11008, 4096]⟩
abbrev S1x11008 : Shape := ⟨2, ![1, 11008]⟩
abbrev S11008x256 : Shape := ⟨2, ![11008, 256]⟩
abbrev S256 : Shape := ⟨1, ![256]⟩
abbrev S11008 : Shape := ⟨1, ![11008]⟩
abbrev S512x4096 : Shape := ⟨2, ![512, 4096]⟩
abbrev S_ : Shape := ⟨0, ![]⟩
abbrev S256x1 : Shape := ⟨2, ![256, 1]⟩
abbrev S512x256 : Shape := ⟨2, ![512, 256]⟩
abbrev S4096 : Shape := ⟨1, ![4096]⟩
abbrev S1x4096 : Shape := ⟨2, ![1, 4096]⟩
abbrev S512 : Shape := ⟨1, ![512]⟩
abbrev S512x1 : Shape := ⟨2, ![512, 1]⟩
abbrev S512x11008 : Shape := ⟨2, ![512, 11008]⟩
abbrev S256x4096 : Shape := ⟨2, ![256, 4096]⟩
abbrev S1x256 : Shape := ⟨2, ![1, 256]⟩
abbrev S256x256 : Shape := ⟨2, ![256, 256]⟩
abbrev S8x64x11008 : Shape := ⟨3, ![8, 64, 11008]⟩

abbrev nBuf : Space → Nat
  | .hbm => 62
  | .vmem => 13
  | .smem => 0
  | _ => 0

abbrev bufTy : (tb : Table) → Fin (tcTables nBuf tb) → BufTy
  | .hbm, ⟨0, _⟩ => ⟨S8x64x4096, .f32⟩
  | .hbm, ⟨1, _⟩ => ⟨S11008x4096, .i32⟩
  | .hbm, ⟨2, _⟩ => ⟨S1x11008, .f32⟩
  | .hbm, ⟨3, _⟩ => ⟨S11008x256, .f32⟩
  | .hbm, ⟨4, _⟩ => ⟨S256, .i32⟩
  | .hbm, ⟨5, _⟩ => ⟨S11008, .f32⟩
  | .hbm, ⟨6, _⟩ => ⟨S512x4096, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S512x256, .f32⟩
  | .hbm, ⟨16, _⟩ => ⟨S_, .i1⟩
  | .hbm, ⟨17, _⟩ => ⟨S4096, .i1⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S_, .i1⟩
  | .hbm, ⟨27, _⟩ => ⟨S256, .i1⟩
  | .hbm, ⟨28, _⟩ => ⟨S4096, .i1⟩
  | .hbm, ⟨29, _⟩ => ⟨S1x4096, .i1⟩
  | .hbm, ⟨30, _⟩ => ⟨S_, .f32⟩
  | .hbm, ⟨31, _⟩ => ⟨S_, .f32⟩
  | .hbm, ⟨32, _⟩ => ⟨S512x4096, .i1⟩
  | .hbm, ⟨33, _⟩ => ⟨S512x4096, .f32⟩
  | .hbm, ⟨34, _⟩ => ⟨S512x4096, .f32⟩
  | .hbm, ⟨35, _⟩ => ⟨S512x4096, .f32⟩
  | .hbm, ⟨36, _⟩ => ⟨S_, .f32⟩
  | .hbm, ⟨37, _⟩ => ⟨S512, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S512x4096, .f32⟩
  | .hbm, ⟨46, _⟩ => ⟨S512x4096, .f32⟩
  | .hbm, ⟨47, _⟩ => ⟨S512x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S512x4096, .f32⟩
  | .hbm, ⟨52, _⟩ => ⟨S512x4096, .f32⟩
  | .hbm, ⟨53, _⟩ => ⟨S_, .f32⟩
  | .hbm, ⟨54, _⟩ => ⟨S512x4096, .f32⟩
  | .hbm, ⟨55, _⟩ => ⟨S512x4096, .f32⟩
  | .hbm, ⟨56, _⟩ => ⟨S512x4096, .bf16⟩
  | .hbm, ⟨57, _⟩ => ⟨S512x256, .bf16⟩
  | .hbm, ⟨58, _⟩ => ⟨S11008x256, .bf16⟩
  | .hbm, ⟨59, _⟩ => ⟨S1x11008, .f32⟩
  | .hbm, ⟨60, _⟩ => ⟨S512x11008, .f32⟩
  | .hbm, ⟨61, _⟩ => ⟨S8x64x11008, .f32⟩
  | .local _ .vmem, ⟨0, _⟩ => ⟨S512x4096, .bf16⟩
  | .local _ .vmem, ⟨1, _⟩ => ⟨S256x4096, .i32⟩
  | .local _ .vmem, ⟨2, _⟩ => ⟨S256x4096, .i32⟩
  | .local _ .vmem, ⟨3, _⟩ => ⟨S1x256, .f32⟩
  | .local _ .vmem, ⟨4, _⟩ => ⟨S1x256, .f32⟩
  | .local _ .vmem, ⟨5, _⟩ => ⟨S256x256, .bf16⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S512x256, .bf16⟩
  | .local _ .vmem, ⟨10, _⟩ => ⟨S512x1, .f32⟩
  | .local _ .vmem, ⟨11, _⟩ => ⟨S512x256, .f32⟩
  | .local _ .vmem, ⟨12, _⟩ => ⟨S512x256, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x64x4096_S512x4096 : S8x64x4096.ShapeCasts S512x4096
  bcast_S_S256 : S_.BroadcastsInDim S256 (![] : Fin 0 → Fin S256.rank)
  bcast_S256_S256x1_0 : S256.BroadcastsInDim S256x1 (![0] : Fin 1 → Fin S256x1.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  bcast_S_S512x4096 : S_.BroadcastsInDim S512x4096 (![] : Fin 0 → Fin S512x4096.rank)
  reducesTo_S512x4096_S512_d1 : S512x4096.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x4096_0_1 : S512x1.BroadcastsInDim S512x4096 (![0, 1] : Fin 2 → Fin S512x4096.rank)
  bitsLt_bf16_f32 : FTy.bits .bf16 < FTy.bits .f32
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S1x256_S1x256_0_0 : ∀ a, (![0, 0] : Fin 2 → Nat) a + S1x256.size a ≤ S1x256.size a
  h_S1x256 : 0 < S1x256.numel
  broadcasts_S1x256_S512x256 : S1x256.Broadcasts S512x256
  shapeCasts_S1x256_S1x256 : S1x256.ShapeCasts S1x256
  shapeCasts_S512x11008_S8x64x11008 : S512x11008.ShapeCasts S8x64x11008
  gather_S512x4096_S256x1_S512x256_0_1_n_n_1_1_5121_wf : GatherDims.WF S512x4096 S256x1 S512x256 [0] [1] [] [1] [] 1 ![512, 1]
  scatter_S4096_S256x1_S256_n_0_0_1_wf : ScatterDims.WF S4096 S256x1 S256 [] [0] [0] 1
  dot_S512x4096_S256x4096_S512x256_1_1_0_0_n_n_wf : DotDims.WF S512x4096 S256x4096 S512x256 [1] [1] [0] [0] [] []
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S11008x256.size a
  hwx0_3 : ∀ i : grid0.Coords, EltTy.bits .bf16 = 32 ∨ (Rect.block (s := S11008x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x11008.size a
  hwx0_7 : ∀ i : grid0.Coords, EltTy.bits .f32 = 32 ∨ (Rect.block (s := S512x11008) S512x256.size (cc0_transform_7 i) (hinb0_7 i)).WholeWords (EltTy.packing .f32)

variable [Facts₀]

def gather_S512x4096_S256x1_S512x256_0_1_n_n_1_1_5121 : GatherDims S512x4096 S256x1 S512x256 where
  offsetDims := [0]
  collapsedSliceDims := [1]
  operandBatchingDims := []
  startIndicesBatchingDims := []
  startIndexMap := [1]
  indexVectorDim := 1
  sliceSizes := ![512, 1]
  wf := gather_S512x4096_S256x1_S512x256_0_1_n_n_1_1_5121_wf
def scatter_S4096_S256x1_S256_n_0_0_1 : ScatterDims S4096 S256x1 S256 where
  updateWindowDims := []
  insertedWindowDims := [0]
  scatterDimsToOperandDims := [0]
  indexVectorDim := 1
  wf := scatter_S4096_S256x1_S256_n_0_0_1_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_v30) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S11008x4096 : Shape := ⟨2, ![11008, 4096]⟩
abbrev S1x11008 : Shape := ⟨2, ![1, 11008]⟩
abbrev S11008x256 : Shape := ⟨2, ![11008, 256]⟩
abbrev S256 : Shape := ⟨1, ![256]⟩
abbrev S11008 : Shape := ⟨1, ![11008]⟩
abbrev S512x4096 : Shape := ⟨2, ![512, 4096]⟩
abbrev S_ : Shape := ⟨0, ![]⟩
abbrev S256x1 : Shape := ⟨2, ![256, 1]⟩
abbrev S512x256 : Shape := ⟨2, ![512, 256]⟩
abbrev S512 : Shape := ⟨1, ![512]⟩
abbrev S512x1 : Shape := ⟨2, ![512, 1]⟩
abbrev S4096x11008 : Shape := ⟨2, ![4096, 11008]⟩
abbrev S512x11008 : Shape := ⟨2, ![512, 11008]⟩
abbrev S256x11008 : Shape := ⟨2, ![256, 11008]⟩
abbrev S8x64x11008 : Shape := ⟨3, ![8, 64, 11008]⟩

abbrev nBuf : Space → Nat
  | .hbm => 62
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S11008x4096, .i32⟩
  | .hbm, ⟨2, _⟩ => ⟨S1x11008, .f32⟩
  | .hbm, ⟨3, _⟩ => ⟨S11008x256, .f32⟩
  | .hbm, ⟨4, _⟩ => ⟨S256, .i32⟩
  | .hbm, ⟨5, _⟩ => ⟨S11008, .f32⟩
  | .hbm, ⟨6, _⟩ => ⟨S512x4096, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S512x256, .f32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S_, .f32⟩
  | .hbm, ⟨25, _⟩ => ⟨S512x256, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512, .f32⟩
  | .hbm, ⟨30, _⟩ => ⟨S512x1, .f32⟩
  | .hbm, ⟨31, _⟩ => ⟨S_, .f32⟩
  | .hbm, ⟨32, _⟩ => ⟨S512x1, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S512x4096, .f32⟩
  | .hbm, ⟨38, _⟩ => ⟨S512x4096, .f32⟩
  | .hbm, ⟨39, _⟩ => ⟨S512x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S512x4096, .f32⟩
  | .hbm, ⟨44, _⟩ => ⟨S512x4096, .f32⟩
  | .hbm, ⟨45, _⟩ => ⟨S_, .f32⟩
  | .hbm, ⟨46, _⟩ => ⟨S512x4096, .f32⟩
  | .hbm, ⟨47, _⟩ => ⟨S512x4096, .f32⟩
  | .hbm, ⟨48, _⟩ => ⟨S4096x11008, .i32⟩
  | .hbm, ⟨49, _⟩ => ⟨S4096x11008, .f32⟩
  | .hbm, ⟨50, _⟩ => ⟨S512x11008, .f32⟩
  | .hbm, ⟨51, _⟩ => ⟨S256x11008, .f32⟩
  | .hbm, ⟨52, _⟩ => ⟨S512x11008, .f32⟩
  | .hbm, ⟨53, _⟩ => ⟨S512x11008, .f32⟩
  | .hbm, ⟨54, _⟩ => ⟨S512x11008, .f32⟩
  | .hbm, ⟨55, _⟩ => ⟨S512x11008, .f32⟩
  | .hbm, ⟨56, _⟩ => ⟨S512x11008, .f32⟩
  | .hbm, ⟨57, _⟩ => ⟨S512x11008, .f32⟩
  | .hbm, ⟨58, _⟩ => ⟨S1x11008, .f32⟩
  | .hbm, ⟨59, _⟩ => ⟨S512x11008, .f32⟩
  | .hbm, ⟨60, _⟩ => ⟨S512x11008, .f32⟩
  | .hbm, ⟨61, _⟩ => ⟨S8x64x11008, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  shapeCasts_S8x64x4096_S512x4096 : S8x64x4096.ShapeCasts S512x4096
  bcast_S_S256 : S_.BroadcastsInDim S256 (![] : Fin 0 → Fin S256.rank)
  bcast_S256_S256x1_0 : S256.BroadcastsInDim S256x1 (![0] : Fin 1 → Fin S256x1.rank)
  bcast_S_S512x256 : S_.BroadcastsInDim S512x256 (![] : Fin 0 → Fin S512x256.rank)
  reducesTo_S512x4096_S512_d1 : S512x4096.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x4096_0_1 : S512x1.BroadcastsInDim S512x4096 (![0, 1] : Fin 2 → Fin S512x4096.rank)
  bcast_S_S512x4096 : S_.BroadcastsInDim S512x4096 (![] : Fin 0 → Fin S512x4096.rank)
  transposes_S11008x4096_S4096x11008_1_0 : S11008x4096.Transposes [1, 0] S4096x11008
  transposes_S11008x256_S256x11008_1_0 : S11008x256.Transposes [1, 0] S256x11008
  bcast_S512x1_S512x11008_0_1 : S512x1.BroadcastsInDim S512x11008 (![0, 1] : Fin 2 → Fin S512x11008.rank)
  bcast_S1x11008_S512x11008_0_1 : S1x11008.BroadcastsInDim S512x11008 (![0, 1] : Fin 2 → Fin S512x11008.rank)
  bcast_S11008_S1x11008_1 : S11008.BroadcastsInDim S1x11008 (![1] : Fin 1 → Fin S1x11008.rank)
  shapeCasts_S512x11008_S8x64x11008 : S512x11008.ShapeCasts S8x64x11008
  gather_S512x4096_S256x1_S512x256_0_1_n_n_1_1_5121_wf : GatherDims.WF S512x4096 S256x1 S512x256 [0] [1] [] [1] [] 1 ![512, 1]
  scatter_S512x4096_S256x1_S512x256_0_1_1_1_wf : ScatterDims.WF S512x4096 S256x1 S512x256 [0] [1] [1] 1
  dot_S512x4096_S4096x11008_S512x11008_1_0_0_1_n_n_wf : DotDims.WF S512x4096 S4096x11008 S512x11008 [1] [0] [0] [1] [] []
  dot_S512x256_S256x11008_S512x11008_1_0_0_1_n_n_wf : DotDims.WF S512x256 S256x11008 S512x11008 [1] [0] [0] [1] [] []

variable [Facts₀]

def gather_S512x4096_S256x1_S512x256_0_1_n_n_1_1_5121 : GatherDims S512x4096 S256x1 S512x256 where
  offsetDims := [0]
  collapsedSliceDims := [1]
  operandBatchingDims := []
  startIndicesBatchingDims := []
  startIndexMap := [1]
  indexVectorDim := 1
  sliceSizes := ![512, 1]
  wf := gather_S512x4096_S256x1_S512x256_0_1_n_n_1_1_5121_wf
def scatter_S512x4096_S256x1_S512x256_0_1_1_1 : ScatterDims S512x4096 S256x1 S512x256 where
  updateWindowDims := [0]
  insertedWindowDims := [1]
  scatterDimsToOperandDims := [1]
  indexVectorDim := 1
  wf := scatter_S512x4096_S256x1_S512x256_0_1_1_1_wf
def dot_S512x4096_S4096x11008_S512x11008_1_0_0_1_n_n : DotDims S512x4096 S4096x11008 S512x11008 where
  lhsContracting := [1]
  rhsContracting := [0]
  lhsNonContracting := [0]
  rhsNonContracting := [1]
  lhsBatch := []
  rhsBatch := []
  wf := dot_S512x4096_S4096x11008_S512x11008_1_0_0_1_n_n_wf
def dot_S512x256_S256x11008_S512x11008_1_0_0_1_n_n : DotDims S512x256 S256x11008 S512x11008 where
  lhsContracting := [1]
  rhsContracting := [0]
  lhsNonContracting := [0]
  rhsNonContracting := [1]
  lhsBatch := []
  rhsBatch := []
  wf := dot_S512x256_S256x11008_S512x11008_1_0_0_1_n_n_wf

class Facts : Prop extends Facts₀ where

variable [Facts]
-- ==== Proof.LibScatterSet.lean ====
/-
  A scatter that replaces entries (jnp's  x.at[…].set(u)) read at one entry.

  The host's scatter is a left fold over the updates' positions in row-major order: the update at position n is
  written at the operand entry it lands on, or dropped when it lands outside. With the replacing body (the new entry
  is the update, whatever was there) an entry of the result is decided by the updates that land on it: if none does,
  the entry is the operand's; if exactly one does, the entry is that update. The second part reads the landing entry
  for the scatter of a block of k rows at the top of an array of n rows (one start index, equal to zero): the update
  at (r, v) lands on the operand's (r, v), so the result is the block on the first k rows and the operand below.
-/
import Idealize.ShloMosaic.PureOps.ShapeOps
import Idealize.ShloMosaic.Lib.ValueIdx

namespace Cert.Lib.ScatterSet

open Idealize.ShloMosaic Idealize.ShloMosaic.ValueIdx

/-! ## A left fold read through an observation -/

section Fold

variable {β γ ι : Type}

/-- If no step over the list changes what is observed, the fold leaves the observation as it was. -/
theorem foldl_read_miss (g : β → ι → β) (rd : β → γ) (L : List ι) (h : ∀ r, ∀ n ∈ L, rd (g r n) = rd r) (r : β) :
    rd (L.foldl g r) = rd r := by
  induction L generalizing r with
  | nil => rfl
  | cons a t ih =>
    rw [List.foldl_cons, ih (fun r n hn => h r n (List.mem_cons_of_mem _ hn)), h r a (List.mem_cons.2 (Or.inl rfl))]

/-- If one step of a list without repetition sets the observation to v, and no other step changes it, the fold
    leaves the observation at v. -/
theorem foldl_read_hit (g : β → ι → β) (rd : β → γ) (v : γ) (n0 : ι) (L : List ι) (hnd : L.Nodup) (hmem : n0 ∈ L)
    (hhit : ∀ r, rd (g r n0) = v) (hmiss : ∀ r, ∀ n ∈ L, n ≠ n0 → rd (g r n) = rd r) (r : β) :
    rd (L.foldl g r) = v := by
  induction L generalizing r with
  | nil => exact absurd hmem List.not_mem_nil
  | cons a t ih =>
    rw [List.foldl_cons]
    have hnd' := List.nodup_cons.1 hnd
    by_cases ha : a = n0
    · subst ha
      rw [foldl_read_miss g rd t fun r n hn => hmiss r n (List.mem_cons_of_mem _ hn) fun e => hnd'.1 (e ▸ hn)]
      exact hhit r
    · have hm : n0 ∈ t := by
        rcases List.mem_cons.1 hmem with e | h
        · exact absurd e.symm ha
        · exact h
      exact ih hnd'.2 hm (fun r n hn => hmiss r n (List.mem_cons_of_mem _ hn)) (g r a)

end Fold

/-! ## The replacing scatter at one entry -/

variable {α : Type} {s si u : Shape} {w : Nat}

/-- An entry no update lands on keeps the operand's value. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  refine foldl_read_miss _ (fun r => r i) _ (fun r n _ => ?_) x
  have hn := h (u.rowMajor.symm n)
  dsimp only
  cases e : d.resultIdx? (u.rowMajor.symm n) idx with
  | none => rfl
  | some i0 =>
    dsimp only
    rw [if_neg]
    rintro rfl
    exact hn e

/-- An entry exactly one update lands on holds that update. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  refine foldl_read_hit _ (fun r => r i) (upd j) (u.rowMajor j) _ (List.nodup_finRange _) (List.mem_finRange _)
    (fun r => ?_) (fun r n _ hne => ?_) x
  · dsimp only
    rw [Equiv.symm_apply_apply, hj]
    dsimp only
    rw [if_pos rfl]
  · dsimp only
    cases e : d.resultIdx? (u.rowMajor.symm n) idx with
    | none => rfl
    | some i0 =>
      dsimp only
      rw [if_neg]
      rintro rfl
      exact hne (by rw [← huniq _ e, Equiv.apply_symm_apply])

/-! ## A block of rows written at the top -/

section TopRows

variable {n c k w : Nat}

/-- Dimension numbers of the scatter that writes a [k, c] block into an [n, c] array at one start index naming axis 0:
    both update axes are window axes, no operand axis is inserted, the index vector has one component, for axis 0. -/
structure TopRows (d : ScatterDims ⟨2, ![n, c]⟩ ⟨1, ![1]⟩ ⟨2, ![k, c]⟩) : Prop where
  uw : d.updateWindowDims = [0, 1]
  iw : d.insertedWindowDims = []
  sd : d.scatterDimsToOperandDims = [0]
  iv : d.indexVectorDim = 0

variable {d : ScatterDims ⟨2, ![n, c]⟩ ⟨1, ![1]⟩ ⟨2, ![k, c]⟩}

/-- The window coordinate on each operand axis is the update's coordinate on that axis. -/
theorem TopRows.window (h : TopRows d) (j : (⟨2, ![k, c]⟩ : Shape).Idx) (a : Fin 2) : d.window j a = (j a).val := by
  obtain ⟨uw, iw, sd, iv, wf⟩ := d
  obtain ⟨h1, h2, h3, h4⟩ := h
  dsimp only at h1 h2 h3 h4
  subst h1 h2 h3 h4
  match a with
  | ⟨0, _⟩ => rfl
  | ⟨1, _⟩ => rfl

/-- With the start index zero, the window starts at zero on both axes: axis 0 reads the index word, axis 1 is not named. -/
theorem TopRows.start (h : TopRows d) (j : (⟨2, ![k, c]⟩ : Shape).Idx) (idx : IVec ⟨1, ![1]⟩ w) (hidx : ∀ q, idx q = 0#w) (a : Fin 2) :
    d.start j idx a = 0 := by
  obtain ⟨uw, iw, sd, iv, wf⟩ := d
  obtain ⟨h1, h2, h3, h4⟩ := h
  dsimp only at h1 h2 h3 h4
  subst h1 h2 h3 h4
  unfold ScatterDims.start
  split
  · rw [hidx]; exact BitVec.toInt_zero
  · rfl

/-- With the start index zero and k ≤ n, the update at (r, v) lands on the operand's entry (r, v). -/
theorem TopRows.resultIdx? (h : TopRows d) (hk : k ≤ n) (idx : IVec ⟨1, ![1]⟩ w) (hidx : ∀ q, idx q = 0#w)
    (j : (⟨2, ![k, c]⟩ : Shape).Idx) :
    d.resultIdx? j idx = some (ix2 (⟨(j 0).val, lt_of_lt_of_le (idx2_lt0 j) hk⟩ : Fin n) (j 1)) := by
  unfold ScatterDims.resultIdx?
  have hb : ∀ a, 0 ≤ d.start j idx a + d.window j a ∧ d.start j idx a + d.window j a < (⟨2, ![n, c]⟩ : Shape).size a := by
    intro a
    rw [h.start j idx hidx a, h.window j a]
    match a with
    | ⟨0, _⟩ =>
      have := idx2_lt0 j
      refine ⟨by omega, ?_⟩
      show (0 : Int) + ((j 0).val : Int) < (n : Int)
      omega
    | ⟨1, _⟩ =>
      have := idx2_lt1 j
      refine ⟨by omega, ?_⟩
      show (0 : Int) + ((j 1).val : Int) < (c : Int)
      omega
  rw [dif_pos hb]
  refine congrArg some (funext fun a => Fin.ext ?_)
  show (d.start j idx a + d.window j a).toNat = _
  rw [h.start j idx hidx a, h.window j a]
  match a with
  | ⟨0, _⟩ => simp
  | ⟨1, _⟩ => simp

/-- On the first k rows the result is the block. -/
theorem TopRows.scatter_set_top (h : TopRows d) (hk : k ≤ n) {α : Type} (x : (⟨2, ![n, c]⟩ : Shape).Idx → α)
    (idx : IVec ⟨1, ![1]⟩ w) (hidx : ∀ q, idx q = 0#w) (upd : (⟨2, ![k, c]⟩ : Shape).Idx → α) (r : Fin n) (v : Fin c)
    (hr : r.val < k) :
    Host.scatter d (fun _ b => b) x idx upd (ix2 r v) = upd (ix2 (⟨r.val, hr⟩ : Fin k) v) := by
  refine scatter_set_hit d x idx upd (ix2 r v) (ix2 (⟨r.val, hr⟩ : Fin k) v) (h.resultIdx? hk idx hidx _) fun j' hj' => ?_
  rw [h.resultIdx? hk idx hidx j'] at hj'
  have e := Option.some.inj hj'
  have e0 : (j' 0).val = r.val := congrArg Fin.val (congrFun e 0)
  have e1 : j' 1 = v := congrFun e 1
  rw [eq_ix2 j']
  exact congrArg₂ ix2 (Fin.ext e0) e1

/-- Below the first k rows the result is the operand. -/
theorem TopRows.scatter_set_below (h : TopRows d) (hk : k ≤ n) {α : Type} (x : (⟨2, ![n, c]⟩ : Shape).Idx → α)
    (idx : IVec ⟨1, ![1]⟩ w) (hidx : ∀ q, idx q = 0#w) (upd : (⟨2, ![k, c]⟩ : Shape).Idx → α) (r : Fin n) (v : Fin c)
    (hr : ¬ r.val < k) :
    Host.scatter d (fun _ b => b) x idx upd (ix2 r v) = x (ix2 r v) := by
  refine scatter_set_miss d x idx upd (ix2 r v) fun j hj => ?_
  rw [h.resultIdx? hk idx hidx j] at hj
  have e0 : (j 0).val = r.val := congrArg Fin.val (congrFun (Option.some.inj hj) 0)
  exact hr (e0 ▸ idx2_lt0 j)

end TopRows

end Cert.Lib.ScatterSet
-- ==== Proof.LibScatterSame.lean ====
/-
  A replacing scatter all of whose updates carry ONE value, read at an entry.

  The host's scatter folds over the updates in row-major order; an update is written at the entry it lands on, or
  dropped when it lands outside the operand. When every update that lands on an entry carries the same value v — a
  constant array of updates, as in  zeros.at[idx].set(True)  and  x.at[:, idx].set(0.0)  — the entry ends at v as soon as
  one update lands on it, however many do and in whatever order: repeated indices do no harm. An entry no update lands
  on keeps the operand's value.

  Two shapes of dimension numbers are read here. A vector [c] scattered through an index column [k, 1] (one index
  word per update, naming axis 0, no window): update q lands on entry w exactly when the q-th word, read signed, is w.
  A matrix [n, c] whose columns are scattered through an index column [k, 1] with updates [n, k] (update axis 0 is the
  window over the rows, the index word names axis 1): update (r, q) lands on entry (r, w) exactly when the q-th word,
  read signed, is w. Both give: the entry is v if some word equals its column, and the operand's entry otherwise.
-/
import proofs.«131723_j27616639713534_1_alg».proof.Proof.LibScatterSet

namespace Cert.Lib.ScatterSame

open Idealize.ShloMosaic Idealize.ShloMosaic.ValueIdx Cert.Lib.ScatterSet

/-! ## A left fold whose steps either keep the observation or set it to one value -/

section Fold

variable {β γ ι : Type}

/-- Once the observation is v, steps that keep it or set it to v leave it at v. -/
theorem foldl_read_stays (g : β → ι → β) (rd : β → γ) (v : γ) (L : List ι)
    (h : ∀ r, ∀ n ∈ L, rd (g r n) = rd r ∨ rd (g r n) = v) (r : β) (hr : rd r = v) : rd (L.foldl g r) = v := by
  induction L generalizing r with
  | nil => exact hr
  | cons a t ih =>
    rw [List.foldl_cons]
    refine ih (fun r n hn => h r n (List.mem_cons_of_mem _ hn)) (g r a) ?_
    rcases h r a (List.mem_cons.2 (Or.inl rfl)) with e | e
    · exact e.trans hr
    · exact e

/-- If some step sets the observation to v whatever the state, and every step keeps it or sets it to v, the fold
    leaves it at v. -/
theorem foldl_read_same (g : β → ι → β) (rd : β → γ) (v : γ) (n0 : ι) (L : List ι) (hmem : n0 ∈ L)
    (hhit : ∀ r, rd (g r n0) = v) (h : ∀ r, ∀ n ∈ L, rd (g r n) = rd r ∨ rd (g r n) = v) (r : β) :
    rd (L.foldl g r) = v := by
  induction L generalizing r with
  | nil => exact absurd hmem List.not_mem_nil
  | cons a t ih =>
    rw [List.foldl_cons]
    have ht : ∀ r, ∀ n ∈ t, rd (g r n) = rd r ∨ rd (g r n) = v := fun r n hn => h r n (List.mem_cons_of_mem _ hn)
    rcases List.mem_cons.1 hmem with e | hm
    · subst e
      exact foldl_read_stays g rd v t ht (g r n0) (hhit r)
    · exact ih hm ht (g r a)

end Fold

/-! ## The replacing scatter where every landing update is v -/

section Same

variable {α : Type} {s si u : Shape} {w : Nat}

/-- An entry some update lands on, every landing update being v, holds v. -/
theorem scatter_set_same (d : ScatterDims s si u) (x : s.Idx → α) (idx : IVec si w) (upd : u.Idx → α) (i : s.Idx) (v : α)
    (j : u.Idx) (hj : d.resultIdx? j idx = some i) (hv : ∀ j', d.resultIdx? j' idx = some i → upd j' = v) :
    Host.scatter d (fun _ b => b) x idx upd i = v := by
  unfold Host.scatter
  refine foldl_read_same _ (fun r => r i) v (u.rowMajor j) _ (List.mem_finRange _) (fun r => ?_) (fun r n _ => ?_) x
  · dsimp only
    rw [Equiv.symm_apply_apply, hj]
    dsimp only
    rw [if_pos rfl]
    exact hv j hj
  · dsimp only
    cases e : d.resultIdx? (u.rowMajor.symm n) idx with
    | none => exact Or.inl rfl
    | some i0 =>
      dsimp only
      by_cases hi : i = i0
      · subst hi
        rw [if_pos rfl]
        exact Or.inr (hv _ e)
      · rw [if_neg hi]
        exact Or.inl rfl

end Same

/-! ## A vector of c entries scattered through an index column -/

section Vec

variable {c k w : Nat}

/-- Dimension numbers of  x.at[idx].set(u)  for a vector x : [c], idx : [k, 1], u : [k]: no window axis, operand axis 0
    inserted and named by the one index word. -/
structure VecAt (d : ScatterDims ⟨1, ![c]⟩ ⟨2, ![k, 1]⟩ ⟨1, ![k]⟩) : Prop where
  uw : d.updateWindowDims = []
  iw : d.insertedWindowDims = [0]
  sd : d.scatterDimsToOperandDims = [0]
  iv : d.indexVectorDim = 1

variable {d : ScatterDims ⟨1, ![c]⟩ ⟨2, ![k, 1]⟩ ⟨1, ![k]⟩}

theorem VecAt.window (h : VecAt d) (j : (⟨1, ![k]⟩ : Shape).Idx) (a : Fin 1) : d.window j a = 0 := by
  obtain ⟨uw, iw, sd, iv, wf⟩ := d
  obtain ⟨h1, h2, h3, h4⟩ := h
  dsimp only at h1 h2 h3 h4
  subst h1 h2 h3 h4
  match a with
  | ⟨0, _⟩ => rfl

theorem VecAt.start (h : VecAt d) (j : (⟨1, ![k]⟩ : Shape).Idx) (idx : IVec ⟨2, ![k, 1]⟩ w) (a : Fin 1) :
    d.start j idx a = (idx (ix2 (j 0) (0 : Fin 1))).toInt := by
  obtain ⟨uw, iw, sd, iv, wf⟩ := d
  obtain ⟨h1, h2, h3, h4⟩ := h
  dsimp only at h1 h2 h3 h4
  subst h1 h2 h3 h4
  obtain rfl : a = 0 := Subsingleton.elim _ _
  unfold ScatterDims.start
  rw [dif_pos (List.mem_singleton.mpr rfl)]
  refine congrArg (fun z => (idx z).toInt) (funext fun b => Fin.ext ?_)
  match b with
  | ⟨0, _⟩ => rfl
  | ⟨1, _⟩ => rfl

/-- Update q lands on entry e exactly when the q-th index word, read signed, is e. -/
theorem VecAt.resultIdx?_eq_some (h : VecAt d) (idx : IVec ⟨2, ![k, 1]⟩ w) (j : (⟨1, ![k]⟩ : Shape).Idx) (e : Fin c) :
    d.resultIdx? j idx = some (ix1 e) ↔ (idx (ix2 (j 0) (0 : Fin 1))).toInt = (e.val : Int) := by
  unfold ScatterDims.resultIdx?
  constructor
  · intro hh
    split at hh
    · rename_i hb
      have e0 := congrArg (fun i : (⟨1, ![c]⟩ : Shape).Idx => ((i 0).val : Int)) (Option.some.inj hh)
      dsimp only at e0
      have hb0 := hb 0
      rw [h.start j idx 0, h.window j 0] at hb0 e0
      simp only [Nat.cast_zero, add_zero] at hb0 e0
      rw [Int.toNat_of_nonneg hb0.1] at e0
      exact e0
    · exact absurd hh (by simp)
  · intro hh
    have hb : ∀ a, 0 ≤ d.start j idx a + d.window j a ∧ d.start j idx a + d.window j a < (⟨1, ![c]⟩ : Shape).size a := by
      intro a
      obtain rfl : a = 0 := Subsingleton.elim _ _
      rw [h.start j idx 0, h.window j 0, hh]
      have := e.isLt
      refine ⟨by simp, ?_⟩
      show ((e.val : Int)) + ((0 : Nat) : Int) < (c : Int)
      omega
    rw [dif_pos hb]
    refine congrArg some (funext fun a => Fin.ext ?_)
    obtain rfl : a = 0 := Subsingleton.elim _ _
    show (d.start j idx 0 + d.window j 0).toNat = e.val
    rw [h.start j idx 0, h.window j 0, hh]
    simp

/-- THE VECTOR READ AT AN ENTRY: v if some index word is the entry's position, the operand's entry otherwise. -/
theorem VecAt.scatter_const_apply (h : VecAt d) {α : Type} [DecidableEq α] (x : (⟨1, ![c]⟩ : Shape).Idx → α) (idx : IVec ⟨2, ![k, 1]⟩ w)
    (v : α) (e : Fin c) [Decidable (∃ q : Fin k, (idx (ix2 q (0 : Fin 1))).toInt = (e.val : Int))] :
    Host.scatter d (fun _ b => b) x idx (fun _ => v) (ix1 e)
      = if ∃ q : Fin k, (idx (ix2 q (0 : Fin 1))).toInt = (e.val : Int) then v else x (ix1 e) := by
  split
  · rename_i hq
    obtain ⟨q, hq⟩ := hq
    exact scatter_set_same d x idx _ (ix1 e) v (ix1 q) ((h.resultIdx?_eq_some idx (ix1 q) e).2 hq) (fun _ _ => rfl)
  · rename_i hq
    refine scatter_set_miss d x idx _ (ix1 e) fun j hj => hq ⟨j 0, (h.resultIdx?_eq_some idx j e).1 hj⟩

end Vec

/-! ## The columns of an n × c matrix scattered through an index column -/

section Cols

variable {n c k w : Nat}

/-- Dimension numbers of  x.at[:, idx].set(u)  for x : [n, c], idx : [k, 1], u : [n, k]: update axis 0 is the window over
    the rows, operand axis 1 is inserted and named by the one index word. -/
structure ColsAt (d : ScatterDims ⟨2, ![n, c]⟩ ⟨2, ![k, 1]⟩ ⟨2, ![n, k]⟩) : Prop where
  uw : d.updateWindowDims = [0]
  iw : d.insertedWindowDims = [1]
  sd : d.scatterDimsToOperandDims = [1]
  iv : d.indexVectorDim = 1

variable {d : ScatterDims ⟨2, ![n, c]⟩ ⟨2, ![k, 1]⟩ ⟨2, ![n, k]⟩}

theorem ColsAt.window0 (h : ColsAt d) (j : (⟨2, ![n, k]⟩ : Shape).Idx) : d.window j 0 = (j 0).val := by
  obtain ⟨uw, iw, sd, iv, wf⟩ := d
  obtain ⟨h1, h2, h3, h4⟩ := h
  dsimp only at h1 h2 h3 h4
  subst h1 h2 h3 h4
  rfl

theorem ColsAt.window1 (h : ColsAt d) (j : (⟨2, ![n, k]⟩ : Shape).Idx) : d.window j 1 = 0 := by
  obtain ⟨uw, iw, sd, iv, wf⟩ := d
  obtain ⟨h1, h2, h3, h4⟩ := h
  dsimp only at h1 h2 h3 h4
  subst h1 h2 h3 h4
  rfl

theorem ColsAt.start0 (h : ColsAt d) (j : (⟨2, ![n, k]⟩ : Shape).Idx) (idx : IVec ⟨2, ![k, 1]⟩ w) : d.start j idx 0 = 0 := by
  obtain ⟨uw, iw, sd, iv, wf⟩ := d
  obtain ⟨h1, h2, h3, h4⟩ := h
  dsimp only at h1 h2 h3 h4
  subst h1 h2 h3 h4
  unfold ScatterDims.start
  rw [dif_neg (fun hm => Nat.zero_ne_one (congrArg Fin.val (List.mem_singleton.mp hm)))]

theorem ColsAt.start1 (h : ColsAt d) (j : (⟨2, ![n, k]⟩ : Shape).Idx) (idx : IVec ⟨2, ![k, 1]⟩ w) :
    d.start j idx 1 = (idx (ix2 (j 1) (0 : Fin 1))).toInt := by
  obtain ⟨uw, iw, sd, iv, wf⟩ := d
  obtain ⟨h1, h2, h3, h4⟩ := h
  dsimp only at h1 h2 h3 h4
  subst h1 h2 h3 h4
  unfold ScatterDims.start
  rw [dif_pos (List.mem_singleton.mpr rfl)]
  refine congrArg (fun z => (idx z).toInt) (funext fun b => Fin.ext ?_)
  match b with
  | ⟨0, _⟩ => rfl
  | ⟨1, _⟩ => rfl

/-- Update (r, q) lands on entry (p, e) exactly when r = p and the q-th index word, read signed, is e. -/
theorem ColsAt.resultIdx?_eq_some (h : ColsAt d) (idx : IVec ⟨2, ![k, 1]⟩ w) (j : (⟨2, ![n, k]⟩ : Shape).Idx) (p : Fin n) (e : Fin c) :
    d.resultIdx? j idx = some (ix2 p e) ↔ (j 0).val = p.val ∧ (idx (ix2 (j 1) (0 : Fin 1))).toInt = (e.val : Int) := by
  unfold ScatterDims.resultIdx?
  constructor
  · intro hh
    split at hh
    · rename_i hb
      have e0 : (d.start j idx 0 + d.window j 0).toNat = p.val :=
        congrArg (fun i : (⟨2, ![n, c]⟩ : Shape).Idx => (i 0).val) (Option.some.inj hh)
      have e1 : (((d.start j idx 1 + d.window j 1).toNat : Nat) : Int) = (e.val : Int) :=
        congrArg (fun i : (⟨2, ![n, c]⟩ : Shape).Idx => ((i 1).val : Int)) (Option.some.inj hh)
      have hb1 := hb 1
      rw [h.start0 j idx, h.window0 j] at e0
      rw [h.start1 j idx, h.window1 j] at hb1 e1
      simp only [Nat.cast_zero, add_zero] at hb1 e1
      rw [Int.toNat_of_nonneg hb1.1] at e1
      refine ⟨?_, e1⟩
      have : ((0 : Int) + ((j 0).val : Int)).toNat = (j 0).val := by omega
      omega
    · exact absurd hh (by simp)
  · rintro ⟨hr, hh⟩
    have hb : ∀ a, 0 ≤ d.start j idx a + d.window j a ∧ d.start j idx a + d.window j a < (⟨2, ![n, c]⟩ : Shape).size a := by
      intro a
      match a with
      | ⟨0, _⟩ =>
        show 0 ≤ d.start j idx 0 + d.window j 0 ∧ d.start j idx 0 + d.window j 0 < (n : Int)
        rw [h.start0 j idx, h.window0 j]
        have := idx2_lt0 j
        omega
      | ⟨1, _⟩ =>
        show 0 ≤ d.start j idx 1 + d.window j 1 ∧ d.start j idx 1 + d.window j 1 < (c : Int)
        rw [h.start1 j idx, h.window1 j, hh]
        have := e.isLt
        omega
    rw [dif_pos hb]
    refine congrArg some (funext fun a => Fin.ext ?_)
    match a with
    | ⟨0, _⟩ =>
      show (d.start j idx 0 + d.window j 0).toNat = p.val
      rw [h.start0 j idx, h.window0 j]
      simpa using hr
    | ⟨1, _⟩ =>
      show (d.start j idx 1 + d.window j 1).toNat = e.val
      rw [h.start1 j idx, h.window1 j, hh]
      simp

/-- THE MATRIX READ AT AN ENTRY: v if some index word is the entry's column, the operand's entry otherwise. -/
theorem ColsAt.scatter_const_apply (h : ColsAt d) {α : Type} (x : (⟨2, ![n, c]⟩ : Shape).Idx → α) (idx : IVec ⟨2, ![k, 1]⟩ w)
    (v : α) (p : Fin n) (e : Fin c) [Decidable (∃ q : Fin k, (idx (ix2 q (0 : Fin 1))).toInt = (e.val : Int))] :
    Host.scatter d (fun _ b => b) x idx (fun _ => v) (ix2 p e)
      = if ∃ q : Fin k, (idx (ix2 q (0 : Fin 1))).toInt = (e.val : Int) then v else x (ix2 p e) := by
  split
  · rename_i hq
    obtain ⟨q, hq⟩ := hq
    exact scatter_set_same d x idx _ (ix2 p e) v (ix2 p q) ((h.resultIdx?_eq_some idx (ix2 p q) p e).2 ⟨rfl, hq⟩) (fun _ _ => rfl)
  · rename_i hq
    refine scatter_set_miss d x idx _ (ix2 p e) fun j hj => hq ⟨j 1, ((h.resultIdx?_eq_some idx j p e).1 hj).2⟩

end Cols

end Cert.Lib.ScatterSame
-- ==== Proof.LibZeroed.lean ====
/-
  Zeroing the listed columns of a matrix, two ways.

  Given index words idx[0..k), one way builds a row of flags — flag e is set when some word, read signed, equals e
  (zeros.at[idx].set(True)) — and takes, entry by entry, z where the entry's column is flagged and the matrix entry
  otherwise (where(mask[None, :], z, x)). The other writes z straight into those columns (x.at[:, idx].set(z)). Both give
  at (p, e): z if some word equals e, and x (p, e) otherwise; a word outside [0, c) flags nothing and writes nothing.
-/
import proofs.«131723_j27616639713534_1_alg».proof.Proof.LibScatterSame

namespace Cert.Lib.Zeroed

open Idealize.ShloMosaic Idealize.ShloMosaic.ValueIdx Cert.Lib.ScatterSame

variable {n c k w : Nat} {α : Type}

/-- The selection under the flags is the scatter of the constant: `flags` is any [n, c] array of bits whose entry (p, e) is
    the e-th flag of the scattered flag vector (the flag row broadcast down the rows). -/
theorem select_flags_eq_scatter (d1 : ScatterDims ⟨1, ![c]⟩ ⟨2, ![k, 1]⟩ ⟨1, ![k]⟩) (h1 : VecAt d1)
    (d2 : ScatterDims ⟨2, ![n, c]⟩ ⟨2, ![k, 1]⟩ ⟨2, ![n, k]⟩) (h2 : ColsAt d2)
    (x : (⟨2, ![n, c]⟩ : Shape).Idx → α) (idx : IVec ⟨2, ![k, 1]⟩ w) (z : α) (flags : IVec ⟨2, ![n, c]⟩ 1)
    (hflags : ∀ p e, flags (ix2 p e) = Host.scatter d1 (fun _ b => b) (fun _ => 0#1) idx (fun _ => 1#1) (ix1 e)) :
    select flags (fun _ => z) x = Host.scatter d2 (fun _ b => b) x idx (fun _ => z) := by
  funext i
  obtain ⟨p, e, rfl⟩ : ∃ (p : Fin n) (e : Fin c), i = ix2 p e := ⟨i 0, i 1, eq_ix2 i⟩
  rw [select_apply, hflags, h1.scatter_const_apply, h2.scatter_const_apply]
  by_cases hq : ∃ q : Fin k, (idx (ix2 q (0 : Fin 1))).toInt = (e.val : Int)
  · rw [if_pos hq, if_pos hq, select_one]
  · rw [if_neg hq, if_neg hq, select_zero]

end Cert.Lib.Zeroed
-- ==== Proof.HostSide.lean ====
/-
  What the kernel's pallas_call is handed, as functions of the arguments.

  Before the call the host program computes, from the activations x (read as a [512, 4096] matrix) and the index words:
  the gathered outlier columns; the matrix z with the listed columns zeroed; the row scales max(rowmax |z| / 127, 1e-8);
  and the quantized activations clip(round(z / scale), -128, 127). Kernel and reference compute the gather, the scales
  and the quantized activations by the same operations in the same order; they differ only in how z is made (a selection
  under a row of flags against a scatter of zeros), and those agree entry by entry. So each array the call is handed is
  the reference's stage of the same name, up to a change of float format, which is the identity on extended reals.
-/
import proofs.«131723_j27616639713534_1_alg».proof.Proof.Gen.KernelIdeal.Frame
import proofs.«131723_j27616639713534_1_alg».proof.Proof.Gen.ReferenceIdeal.Read
import proofs.«131723_j27616639713534_1_alg».proof.Proof.LibZeroed
import Idealize.ShloMosaic.Lib.StableHlo.Run
import Idealize.ShloMosaic.Lib.Pipeline.Value

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen

/-! ## The kernel's zeroed matrix -/

/-- The kernel's zeroed matrix: 0 where the column's flag is set, the activation otherwise; the flags are the scatter of
    ones into a row of zeros at the (wrapped) index words. -/
def zK (a0 : S8x64x4096.Idx → EReal) (a4 : IVec S256 32) : S512x4096.Idx → EReal :=
  select
    (broadcastInDim S512x4096 ![0, 1] bcast_S1x4096_S512x4096_0_1
      (broadcastInDim S1x4096 ![1] bcast_S4096_S1x4096_1
        (Host.scatter scatter_S4096_S256x1_S256_n_0_0_1 (fun _ b => b)
          (broadcastInDim S4096 ![] bcast_S_S4096 (constantI S_ 1 0#1))
          (broadcastInDim S256x1 ![0] bcast_S256_S256x1_0
            (select (cmpi .slt a4 (broadcastInDim S256 ![] bcast_S_S256 (constantI S_ 32 0#32)))
              (addi a4 (broadcastInDim S256 ![] bcast_S_S256 (constantI S_ 32 4096#32))) a4))
          (broadcastInDim S256 ![] bcast_S_S256 (constantI S_ 1 1#1)))))
    (broadcastInDim S512x4096 ![] bcast_S_S512x4096 (id (constant (F := Ideal) S_ .f32 0x00000000#32)))
    (shapeCast S512x4096 a0 shapeCasts_S8x64x4096_S512x4096)

/-! ## The two zeroed matrices agree -/

theorem flags_dims : Lib.ScatterSame.VecAt scatter_S4096_S256x1_S256_n_0_0_1 := ⟨rfl, rfl, rfl, rfl⟩
theorem cols_dims : Lib.ScatterSame.ColsAt ReferenceIdeal.scatter_S512x4096_S256x1_S512x256_0_1_1_1 := ⟨rfl, rfl, rfl, rfl⟩

/-- Selecting 0 under the flag row is scattering 0 into the flagged columns. -/
theorem zK_eq (a0 : S8x64x4096.Idx → EReal) (a4 : IVec S256 32) :
    zK a0 a4 = ReferenceIdeal.Read.val_main_v15 (F := Ideal) a0 a4 := by
  unfold zK ReferenceIdeal.Read.val_main_v15
  have hz : broadcastInDim S512x4096 ![] bcast_S_S512x4096 (id (constant (F := Ideal) S_ .f32 0x00000000#32))
      = fun _ => Ideal.ofBits .f32 0x00000000#32 :=
    funext fun i => broadcastInDim_apply _ bcast_S_S512x4096 _ i (fun a => a.elim0) (fun a => a.elim0)
  have hzr : ReferenceIdeal.Read.val_main_v14 (F := Ideal) = fun _ => Ideal.ofBits .f32 0x00000000#32 :=
    funext fun i => ReferenceIdeal.Read.val_main_v14_apply i
  have h0 : broadcastInDim S4096 ![] bcast_S_S4096 (constantI S_ 1 0#1) = fun _ => 0#1 :=
    funext fun i => broadcastInDim_apply _ bcast_S_S4096 _ i (fun a => a.elim0) (fun a => a.elim0)
  have h1 : broadcastInDim S256 ![] bcast_S_S256 (constantI S_ 1 1#1) = fun _ => 1#1 :=
    funext fun i => broadcastInDim_apply _ bcast_S_S256 _ i (fun a => a.elim0) (fun a => a.elim0)
  rw [hz, hzr, h0, h1]
  refine Lib.Zeroed.select_flags_eq_scatter scatter_S4096_S256x1_S256_n_0_0_1 flags_dims
    ReferenceIdeal.scatter_S512x4096_S256x1_S512x256_0_1_1_1 cols_dims _ _ _ _ (fun p e => ?_)
  refine (broadcastInDim_apply _ bcast_S1x4096_S512x4096_0_1 _ (ix2 p e) (ix2 (0 : Fin 1) e) (fun a => ?_)).trans
    (broadcastInDim_apply _ bcast_S4096_S1x4096_1 _ (ix2 (0 : Fin 1) e) (ix1 e) (fun a => ?_))
  · match a with
    | ⟨0, _⟩ => show (0 : ℕ) = if (1 : ℕ) = 1 then 0 else p.val; rw [if_pos rfl]
    | ⟨1, _⟩ => show e.val = if (4096 : ℕ) = 1 then 0 else e.val; rw [if_neg (by decide)]
  · match a with
    | ⟨0, _⟩ => show e.val = if (4096 : ℕ) = 1 then 0 else e.val; rw [if_neg (by decide)]

/-! ## The arrays the call is handed -/

variable (m : (ℓ : Loc nD τ sig) → Buf (Elt Ideal) ℓ)

/-- The arguments, typed as the reference's stages take them. -/
abbrev x0 (c : Dev nD) : S8x64x4096.Idx → EReal := m ((c : Thread nD τ).loc main_arg0)
abbrev x1 (c : Dev nD) : IVec S11008x4096 32 := m ((c : Thread nD τ).loc main_arg1)
abbrev x2 (c : Dev nD) : S1x11008.Idx → EReal := m ((c : Thread nD τ).loc main_arg2)
abbrev x3 (c : Dev nD) : S11008x256.Idx → EReal := m ((c : Thread nD τ).loc main_arg3)
abbrev x4 (c : Dev nD) : IVec S256 32 := m ((c : Thread nD τ).loc main_arg4)
abbrev x5 (c : Dev nD) : S11008.Idx → EReal := m ((c : Thread nD τ).loc main_arg5)

set_option maxRecDepth 8192 in
set_option maxHeartbeats 2000000 in
/-- The outlier activations: the reference's gather. -/
theorem V_outliers (c : Dev nD) : V m c main_v31
    = (truncf (F := Ideal) (s := S512x256) .bf16 (ReferenceIdeal.Read.val_main_v7 (F := Ideal) (x0 m c) (x4 m c)) bitsLt_bf16_f32 : S512x256.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

set_option maxRecDepth 8192 in
set_option maxHeartbeats 1000000 in
/-- The row scales: the reference's. -/
theorem V_scales (c : Dev nD) : V m c main_v25
    = (ReferenceIdeal.Read.val_main_v22 (F := Ideal) (x0 m c) (x4 m c) : S512x1.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  -- the zeroed matrix, as the inlined selection leaves it
  generalize hZ : TRef.toBuf _ (select _ _ _) = Z
  have hZ' : Z = ReferenceIdeal.Read.val_main_v15 (F := Ideal) (x0 m c) (x4 m c) := by
    rw [← hZ, ← zK_eq]
    unfold zK
    simp only [TRef.toBuf, TRef.ofBuf, cast_cast, cast_eq]
    rfl
  rw [hZ']
  rfl

set_option maxRecDepth 8192 in
set_option maxHeartbeats 1000000 in
/-- The quantized activations: the reference's. -/
theorem V_quant (c : Dev nD) : V m c main_v30
    = (truncf (F := Ideal) (s := S512x4096) .bf16 (ReferenceIdeal.Read.val_main_v26 (F := Ideal) (x0 m c) (x4 m c)) bitsLt_bf16_f32 : S512x4096.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  generalize hZ : TRef.toBuf _ (select _ _ _) = Z
  have hZ' : Z = ReferenceIdeal.Read.val_main_v15 (F := Ideal) (x0 m c) (x4 m c) := by
    rw [← hZ, ← zK_eq]
    unfold zK
    simp only [TRef.toBuf, TRef.ofBuf, cast_cast, cast_eq]
    rfl
  rw [hZ']
  simp only [TRef.toBuf, TRef.ofBuf, cast_cast, cast_eq]
  rfl

set_option maxRecDepth 8192 in
set_option maxHeartbeats 2000000 in
/-- The outlier weights: the argument, in another float format. -/
theorem V_wcache (c : Dev nD) : V m c main_v32
    = (truncf (F := Ideal) (s := S11008x256) .bf16 (x3 m c) bitsLt_bf16_f32 : S11008x256.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

set_option maxRecDepth 8192 in
set_option maxHeartbeats 2000000 in
/-- The bias: the argument, as a one-row matrix. -/
theorem V_bias (c : Dev nD) : V m c main_v33
    = (shapeCast S1x11008 (x5 m c) shapeCasts_S11008_S1x11008 : S1x11008.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

end Cert.KernelIdeal.HostSide

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.LibColumn.lean ====
/-
  A column kept beside a matrix (what `keepdims=True` leaves): a vector `[a]` cast to the column `[a, 1]`, and a column
  `[a, 1]` broadcast over the `b` lanes of `[a, b]`, each read at an index given by its coordinates; and the source index a
  reduction over the lanes of an `[a, b]` array folds over, by its coordinates.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the row `p` of an `[a, b]` array, the source index a reduction along the lanes visits at lane `k` is `(p, k)`. -/
theorem lift_lanes_ix1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Idealize.ShloMosaic.ValueIdx
-- ==== Proof.Body.lean ====
/-
  The kernel body at one entry.

  At a grid point the body holds a [512, 4096] block qx of quantized activations, a [256, 4096] block qw of integer
  weights, a [512, 256] block ao of outlier activations, a [256, 256] block wc of outlier weights, the column xs of row
  scales, and the rows sc (column scales) and b (bias) of its 256 output columns. Entry (p, q) of what it stores is

      ((∑ j < 4096, qx (p, j) · qw (q, j)) · xs p) · sc q + (∑ k < 256, ao (p, k) · wc (q, k)) + b q

  on the extended reals: both products contract axis 1 of both operands into a zero accumulator, the integer weights
  enter as the reals they denote, and the column and the two rows are broadcast across the block.
-/
import proofs.«131723_j27616639713534_1_alg».proof.Proof.Gen.KernelIdeal.Skeleton
import proofs.«131723_j27616639713534_1_alg».proof.Proof.LibDotRows
import proofs.«131723_j27616639713534_1_alg».proof.Proof.LibColumn
import Idealize.ShloMosaic.Lib.Pipeline.Value
import Idealize.ShloMosaic.Lib.ValueIdx

noncomputable section

open scoped BigOperators

namespace Cert.KernelIdeal.Body

open Idealize.ShloMosaic Idealize.ShloMosaic.ValueIdx Cert.KernelIdeal Cert.KernelIdeal.Gen Cert.Lib.DotRows

/-- A row [1, b] broadcast down the a rows of [a, b] reads, at (p, v), the row's entry v. -/
theorem broadcastTo_row_apply {α : Type} {a b : ℕ} (x : (⟨2, ![1, b]⟩ : Shape).Idx → α) (h : (⟨2, ![1, b]⟩ : Shape).Broadcasts ⟨2, ![a, b]⟩)
    (p : Fin a) (v : Fin b) : broadcastTo ⟨2, ![a, b]⟩ x h (ix2 p v) = x (ix2 (0 : Fin 1) v) := by
  refine broadcastTo_apply x h (ix2 p v) (ix2 (0 : Fin 1) v) fun ax => ?_
  match ax with
  | ⟨0, _⟩ =>
    show (0 : ℕ) = if (1 : ℕ) = 1 then 0 else p.val
    rw [if_pos rfl]
  | ⟨1, _⟩ =>
    show v.val = if b = 1 then 0 else v.val
    split
    · have := v.isLt; omega
    · rfl

/-- Both of the body's products contract axis 1 of both operands. -/
theorem rows_main : RowsRows dot_S512x4096_S256x4096_S512x256_1_1_0_0_n_n := ⟨rfl, rfl, rfl, rfl, rfl, rfl⟩
theorem rows_outl : RowsRows dot_S512x256_S256x256_S512x256_1_1_0_0_n_n := ⟨rfl, rfl, rfl, rfl, rfl, rfl⟩

/-- THE BODY'S STORED VALUE AT (p, q). -/
theorem pay_apply (qw : Vec Ideal S256x4096 .i32) (qx : Vec Ideal S512x4096 .bf16) (ao : Vec Ideal S512x256 .bf16)
    (wc : Vec Ideal S256x256 .bf16) (xs : Vec Ideal S512x1 .f32) (sc : Vec Ideal S1x256 .f32) (b : Vec Ideal S1x256 .f32)
    (p : Fin 512) (q : Fin 256) :
    k0_pay1 (F := Ideal) qw qx ao wc xs sc b (ix2 p q)
      = ((∑ j : Fin 4096, qx (ix2 p j) * (((qw (ix2 q j)).toInt : ℝ) : EReal)) * xs (ix2 p (0 : Fin 1))) * sc (ix2 (0 : Fin 1) q)
        + (∑ k : Fin 256, ao (ix2 p k) * wc (ix2 q k)) + b (ix2 (0 : Fin 1) q) := by
  unfold k0_pay1
  simp only [shapeCast_self]
  rw [addf_apply, addf_apply, mulf_apply, mulf_apply, rows_main.matmul_zero_apply, rows_outl.matmul_zero_apply,
    broadcastTo_a1_ab_apply, broadcastTo_row_apply, broadcastTo_row_apply]
  rfl

end Cert.KernelIdeal.Body

end
-- ==== Proof.RefEntry.lean ====
/-
  The reference's [512, 11008] result, before its last reshape, at one entry.
-/
import proofs.«131723_j27616639713534_1_alg».proof.Proof.Gen.ReferenceIdeal.Read

noncomputable section

open scoped BigOperators

namespace Cert.ReferenceIdeal.Entry

open Idealize.ShloMosaic Idealize.ShloMosaic.ValueIdx Cert.ReferenceIdeal Cert.ReferenceIdeal.Read

/-- Entry (p, e) of the reference's result: with q its clipped, rounded quantized activations, xs its row scales and ao
    its gathered outlier columns (each a stage of the run, a function of x and the index words only),

      ((∑ j < 4096, q (p, j) · w (e, j)) · xs p) · sc e + (∑ k < 256, ao (p, k) · wc (e, k)) + b e,

    the integer weights w entering as the reals they denote; the two transposes only swap the coordinates read. -/
theorem out_apply (x0 : (⟨S8x64x4096, .f32⟩ : BufTy).Contents (Elt Ideal)) (x1 : (⟨S11008x4096, .i32⟩ : BufTy).Contents (Elt Ideal))
    (x2 : (⟨S1x11008, .f32⟩ : BufTy).Contents (Elt Ideal)) (x3 : (⟨S11008x256, .f32⟩ : BufTy).Contents (Elt Ideal))
    (x4 : (⟨S256, .i32⟩ : BufTy).Contents (Elt Ideal)) (x5 : (⟨S11008, .f32⟩ : BufTy).Contents (Elt Ideal)) (p : Fin 512) (e : Fin 11008) :
    val_main_v39 (F := Ideal) x0 x1 x2 x3 x4 x5 (ix2 p e)
      = ((∑ j : Fin 4096, val_main_v26 (F := Ideal) x0 x4 (ix2 p j) * (((x1 (ix2 e j)).toInt : ℝ) : EReal))
            * val_main_v22 (F := Ideal) x0 x4 (ix2 p (0 : Fin 1))) * x2 (ix2 (0 : Fin 1) e)
        + (∑ k : Fin 256, val_main_v7 (F := Ideal) x0 x4 (ix2 p k) * x3 (ix2 e k)) + x5 (ix1 e) := by
  have hl29 : ∀ k : Fin 4096, lidx_main_v29 (ix2 p e) k = ix2 p k := fun k =>
    funext fun a => Fin.ext (by match a with | ⟨0, _⟩ => rfl | ⟨1, _⟩ => rfl)
  have hr29 : ∀ k : Fin 4096, idx_main_v27 (ridx_main_v29 (ix2 p e) k) = ix2 e k := fun k =>
    funext fun a => Fin.ext (by match a with | ⟨0, _⟩ => rfl | ⟨1, _⟩ => rfl)
  have hl31 : ∀ k : Fin 256, lidx_main_v31 (ix2 p e) k = ix2 p k := fun k =>
    funext fun a => Fin.ext (by match a with | ⟨0, _⟩ => rfl | ⟨1, _⟩ => rfl)
  have hr31 : ∀ k : Fin 256, idx_main_v30 (ridx_main_v31 (ix2 p e) k) = ix2 e k := fun k =>
    funext fun a => Fin.ext (by match a with | ⟨0, _⟩ => rfl | ⟨1, _⟩ => rfl)
  have h32 : idx_main_v32 (ix2 p e) = ix2 p (0 : Fin 1) :=
    funext fun a => Fin.ext (by match a with | ⟨0, _⟩ => rfl | ⟨1, _⟩ => rfl)
  have h34 : idx_main_v34 (ix2 p e) = ix2 (0 : Fin 1) e :=
    funext fun a => Fin.ext (by match a with | ⟨0, _⟩ => rfl | ⟨1, _⟩ => rfl)
  have h37 : idx_main_v37 (idx_main_v38 (ix2 p e)) = ix1 e :=
    funext fun a => Fin.ext (by match a with | ⟨0, _⟩ => rfl)
  rw [val_main_v39_apply, val_main_v36_apply, val_main_v35_apply, val_main_v33_apply, val_main_v29_apply, val_main_v31_apply,
    val_main_v32_apply, val_main_v34_apply, val_main_v38_apply, val_main_v37_apply]
  simp only [val_main_v28_apply, val_main_v27_apply, val_main_v30_apply, hl29, hr29, hl31, hr31, h32, h34, h37]
  rfl

end Cert.ReferenceIdeal.Entry

end
-- ==== Proof.Result.lean ====
/-
  The kernel program's result as one function of the arguments.

  The pallas_call runs 43 grid points; point t computes the block of output columns [256 t, 256 t + 256), all 512
  rows, from: the quantized activations, outlier activations and row scales (whole, the same at every point), and the
  rows 256 t + q of the integer weights and outlier weights and entries 256 t + q of the column scales and bias. What
  point t writes back is therefore the block of ONE [512, 11008] array: the reference's result before its last reshape.
  The 43 blocks tile the array (column e lies in the block of point e / 256), so after the call the array is that
  function, and the program's result is its reshape to [8, 64, 11008].
-/
import proofs.«131723_j27616639713534_1_alg».proof.Proof.HostSide
import proofs.«131723_j27616639713534_1_alg».proof.Proof.Body
import proofs.«131723_j27616639713534_1_alg».proof.Proof.RefEntry

set_option maxRecDepth 16384

noncomputable section

open scoped BigOperators

namespace Cert.KernelIdeal.Result

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.HostSide

variable (m : (ℓ : Loc nD τ sig) → Buf (Elt Ideal) ℓ) (ρ : Dev nD → PrngReg)

theorem hz : (![0, 0] : Fin 2 → Nat) = fun _ => 0 := funext fun a => by fin_cases a <;> rfl

/-- The [512, 11008] array the call leaves: the reference's result before its reshape, of this program's arguments. -/
def G (c : Dev nD) : S512x11008.Idx → EReal :=
  ReferenceIdeal.Read.val_main_v39 (F := Ideal) (x0 m c) (x1 m c) (x2 m c) (x3 m c) (x4 m c) (x5 m c)

/-! ## Which block each window holds at point t -/

theorem idx_whole0 : ∀ t : Fin cfg0.N, win0_0.index t (0 : Fin 2) = 0 ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_cols2 : ∀ t : Fin cfg0.N, win0_2.index t (0 : Fin 2) = 0 ∧ win0_2.index t (1 : Fin 2) = t.val :=
  (by decide +kernel : ∀ t : Fin grid0.N, _)
theorem idx_rows3 : ∀ t : Fin cfg0.N, win0_3.index t (0 : Fin 2) = t.val ∧ win0_3.index t (1 : Fin 2) = 0 :=
  (by decide +kernel : ∀ t : Fin grid0.N, _)
theorem idx_cols4 : ∀ t : Fin cfg0.N, win0_4.index t (0 : Fin 2) = 0 ∧ win0_4.index t (1 : Fin 2) = t.val :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_cols7 : ∀ t : Fin cfg0.N, win0_7.index t (0 : Fin 2) = 0 ∧ win0_7.index t (1 : Fin 2) = t.val :=
  (by decide +kernel : ∀ t : Fin grid0.N, _)

theorem point_lt (t : Fin cfg0.N) : t.val < 43 := lt_of_lt_of_eq t.isLt N_0

/-- Column 256 t + q of the output. -/
def col (t : Fin cfg0.N) (q : Fin 256) : Fin 11008 := ⟨t.val * 256 + q.val, by have := point_lt t; have := q.isLt; omega⟩

/-! ## Each input block, entry by entry -/

/-- The quantized activations are handed whole. -/
theorem blk_quant (c : Dev nD) (t : Fin cfg0.N) (p : Fin 512) (j : Fin 4096) :
    iblk m c 0 t (ix2 p j) = ReferenceIdeal.Read.val_main_v26 (F := Ideal) (x0 m c) (x4 m c) (ix2 p j) := by
  obtain ⟨e0, e1⟩ := idx_whole0 t
  have hemb : ((cfg0.win 0).blk t).view.emb (ix2 p j) = ix2 p j := by
    funext a; apply Fin.ext
    match a with
    | ⟨0, _⟩ => show win0_0.index t (0 : Fin 2) * 512 + 1 * p.val = p.val; omega
    | ⟨1, _⟩ => show win0_0.index t (1 : Fin 2) * 4096 + 1 * j.val = j.val; omega
  show V m c main_v30 (((cfg0.win 0).blk t).view.emb (ix2 p j)) = _
  rw [hemb, V_quant]
  rfl

/-- Point t holds rows 256 t + q of the integer weights. -/
theorem blk_weights (c : Dev nD) (t : Fin cfg0.N) (q : Fin 256) (j : Fin 4096) :
    iblk m c 1 t (ix2 q j) = x1 m c (ix2 (col t q) j) := by
  obtain ⟨e0, e1⟩ := idx_rows1 t
  have hemb : ((cfg0.win 1).blk t).view.emb (ix2 q j) = ix2 (col t q) j := by
    funext a; apply Fin.ext
    match a with
    | ⟨0, _⟩ => show win0_1.index t (0 : Fin 2) * 256 + 1 * q.val = t.val * 256 + q.val; omega
    | ⟨1, _⟩ => show win0_1.index t (1 : Fin 2) * 4096 + 1 * j.val = j.val; omega
  show V m c main_arg1 (((cfg0.win 1).blk t).view.emb (ix2 q j)) = _
  rw [hemb, V_main_arg1]

/-- Point t holds entries 256 t + q of the column scales. -/
theorem blk_colscale (c : Dev nD) (t : Fin cfg0.N) (q : Fin 256) :
    iblk m c 2 t (ix2 (0 : Fin 1) q) = x2 m c (ix2 (0 : Fin 1) (col t q)) := by
  obtain ⟨e0, e1⟩ := idx_cols2 t
  have hemb : ((cfg0.win 2).blk t).view.emb (ix2 (0 : Fin 1) q) = ix2 (0 : Fin 1) (col t q) := by
    funext a; apply Fin.ext
    match a with
    | ⟨0, _⟩ => show win0_2.index t (0 : Fin 2) * 1 + 1 * 0 = 0; omega
    | ⟨1, _⟩ => show win0_2.index t (1 : Fin 2) * 256 + 1 * q.val = t.val * 256 + q.val; omega
  show V m c main_arg2 (((cfg0.win 2).blk t).view.emb (ix2 (0 : Fin 1) q)) = _
  rw [hemb, V_main_arg2]

/-- Point t holds rows 256 t + q of the outlier weights. -/
theorem blk_wcache (c : Dev nD) (t : Fin cfg0.N) (q : Fin 256) (k : Fin 256) :
    iblk m c 3 t (ix2 q k) = x3 m c (ix2 (col t q) k) := by
  obtain ⟨e0, e1⟩ := idx_rows3 t
  have hemb : ((cfg0.win 3).blk t).view.emb (ix2 q k) = ix2 (col t q) k := by
    funext a; apply Fin.ext
    match a with
    | ⟨0, _⟩ => show win0_3.index t (0 : Fin 2) * 256 + 1 * q.val = t.val * 256 + q.val; omega
    | ⟨1, _⟩ => show win0_3.index t (1 : Fin 2) * 256 + 1 * k.val = k.val; omega
  show V m c main_v32 (((cfg0.win 3).blk t).view.emb (ix2 q k)) = _
  rw [hemb, V_wcache]
  rfl

/-- Point t holds entries 256 t + q of the bias. -/
theorem blk_bias (c : Dev nD) (t : Fin cfg0.N) (q : Fin 256) :
    iblk m c 4 t (ix2 (0 : Fin 1) q) = x5 m c (ix1 (col t q)) := by
  obtain ⟨e0, e1⟩ := idx_cols4 t
  have hemb : ((cfg0.win 4).blk t).view.emb (ix2 (0 : Fin 1) q) = ix2 (0 : Fin 1) (col t q) := by
    funext a; apply Fin.ext
    match a with
    | ⟨0, _⟩ => show win0_4.index t (0 : Fin 2) * 1 + 1 * 0 = 0; omega
    | ⟨1, _⟩ => show win0_4.index t (1 : Fin 2) * 256 + 1 * q.val = t.val * 256 + q.val; omega
  show V m c main_v33 (((cfg0.win 4).blk t).view.emb (ix2 (0 : Fin 1) q)) = _
  rw [hemb, V_bias]
  exact shapeCast_apply _ _ _ _ (by rw [Shape.rowMajor_val_one, Shape.rowMajor_val_two]; show (col t q).val = 0 * 11008 + (col t q).val; omega)

/-- The outlier activations are handed whole. -/
theorem blk_outliers (c : Dev nD) (t : Fin cfg0.N) (p : Fin 512) (k : Fin 256) :
    iblk m c 5 t (ix2 p k) = ReferenceIdeal.Read.val_main_v7 (F := Ideal) (x0 m c) (x4 m c) (ix2 p k) := by
  obtain ⟨e0, e1⟩ := idx_whole5 t
  have hemb : ((cfg0.win 5).blk t).view.emb (ix2 p k) = ix2 p k := by
    funext a; apply Fin.ext
    match a with
    | ⟨0, _⟩ => show win0_5.index t (0 : Fin 2) * 512 + 1 * p.val = p.val; omega
    | ⟨1, _⟩ => show win0_5.index t (1 : Fin 2) * 256 + 1 * k.val = k.val; omega
  show V m c main_v31 (((cfg0.win 5).blk t).view.emb (ix2 p k)) = _
  rw [hemb, V_outliers]
  rfl

/-- The row scales are handed whole. -/
theorem blk_rowscale (c : Dev nD) (t : Fin cfg0.N) (p : Fin 512) :
    iblk m c 6 t (ix2 p (0 : Fin 1)) = ReferenceIdeal.Read.val_main_v22 (F := Ideal) (x0 m c) (x4 m c) (ix2 p (0 : Fin 1)) := by
  obtain ⟨e0, e1⟩ := idx_whole6 t
  have hemb : ((cfg0.win 6).blk t).view.emb (ix2 p (0 : Fin 1)) = ix2 p (0 : Fin 1) := by
    funext a; apply Fin.ext
    match a with
    | ⟨0, _⟩ => show win0_6.index t (0 : Fin 2) * 512 + 1 * p.val = p.val; omega
    | ⟨1, _⟩ => show win0_6.index t (1 : Fin 2) * 1 + 1 * 0 = 0; omega
  show V m c main_v25 (((cfg0.win 6).blk t).view.emb (ix2 p (0 : Fin 1))) = _
  rw [hemb, V_scales]

/-! ## What point t writes back -/

/-- The output block's entry (p, q) sits at (p, 256 t + q) of the array. -/
theorem emb_out (t : Fin cfg0.N) (p : Fin 512) (q : Fin 256) :
    ((cfg0.win 7).blk t).view.emb (ix2 p q) = ix2 p (col t q) := by
  obtain ⟨e0, e1⟩ := idx_cols7 t
  funext a; apply Fin.ext
  match a with
  | ⟨0, _⟩ => show win0_7.index t (0 : Fin 2) * 512 + 1 * p.val = p.val; omega
  | ⟨1, _⟩ => show win0_7.index t (1 : Fin 2) * 256 + 1 * q.val = t.val * 256 + q.val; omega

/-- WHAT POINT t WRITES BACK is block t of G. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz]
  simp only [View.ld_unit_zero (S := S256x4096) hz, View.ld_unit_zero (S := S512x4096) hz, View.ld_unit_zero (S := S512x256) hz,
    View.ld_unit_zero (S := S256x256) hz, View.ld_unit_zero (S := S512x1) hz, View.ld_unit_zero (S := S1x256) hz]
  funext y
  obtain ⟨p, q, rfl⟩ : ∃ (p : Fin 512) (q : Fin 256), y = ix2 p q := ⟨y 0, y 1, eq_ix2 y⟩
  show k0_pay1 (F := Ideal) (iblk m c 1 t) (iblk m c 0 t) (iblk m c 5 t) (iblk m c 3 t) (iblk m c 6 t) (iblk m c 2 t) (iblk m c 4 t) (ix2 p q)
    = G m c (((cfg0.win 7).blk t).view.emb (ix2 p q))
  refine (Body.pay_apply (iblk m c 1 t) (iblk m c 0 t) (iblk m c 5 t) (iblk m c 3 t) (iblk m c 6 t) (iblk m c 2 t) (iblk m c 4 t) p q).trans ?_
  rw [emb_out t p q]
  unfold G
  rw [ReferenceIdeal.Entry.out_apply]
  simp only [blk_quant m c t, blk_weights m c t, blk_colscale m c t, blk_wcache m c t, blk_bias m c t, blk_outliers m c t, blk_rowscale m c t]

/-! ## The blocks tile the array -/

theorem mem_blk (t : Fin cfg0.N) (i : S512x11008.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v34).slice (win0_7.rect t)).set ↔ _
  rw [View.set_slice_whole, Rect.mem_set_unit]
  exact Iff.rfl

/-- Column e lies in the block of point e / 256. -/
theorem cover (i : S512x11008.Idx) : ∃ t : Fin cfg0.N, (cfg0.win 7).flush t = true ∧ i ∈ ((cfg0.win 7).blk t).view.set := by
  have h0 : (i 0).val < 512 := (i 0).isLt
  have h1 : (i 1).val < 11008 := (i 1).isLt
  have ht : (i 1).val / 256 < cfg0.N := by show _ < grid0.N; rw [N_0]; omega
  obtain ⟨e0, e1⟩ := idx_cols7 ⟨(i 1).val / 256, ht⟩
  have e1' : win0_7.index ⟨(i 1).val / 256, ht⟩ (1 : Fin 2) = (i 1).val / 256 := e1
  refine ⟨⟨(i 1).val / 256, ht⟩, flush0_7 _, ?_⟩
  rw [mem_blk]
  intro a
  match a with
  | ⟨0, _⟩ =>
    show win0_7.index ⟨(i 1).val / 256, ht⟩ (0 : Fin 2) * 512 ≤ (i 0).val ∧ (i 0).val < win0_7.index ⟨(i 1).val / 256, ht⟩ (0 : Fin 2) * 512 + 512
    omega
  | ⟨1, _⟩ =>
    show win0_7.index ⟨(i 1).val / 256, ht⟩ (1 : Fin 2) * 256 ≤ (i 1).val ∧ (i 1).val < win0_7.index ⟨(i 1).val / 256, ht⟩ (1 : Fin 2) * 256 + 256
    omega

/-- THE ARRAY after the call is G. -/
theorem final (c : Dev nD) : (dats m 0 c).arrAt 7 cfg0.N = G m c :=
  (dats m 0 c).arrAt_eq_of_cover 7 (G m c) (fun t _ => flushed_eq m c t) cover

/-! ## The program's result -/

/-- After the call the one remaining host operation reshapes the array to [8, 64, 11008]. -/
theorem tail (c : Dev nD) : Pipeline.afterTail₀ cfgs (dats m) 0 (V0 m) [hostOps1] c main_v35
    = (shapeCast S8x64x11008 (G m c) shapeCasts_S512x11008_S8x64x11008 : S8x64x11008.Idx → EReal) := by
  unfold Pipeline.afterTail₀
  show StableHlo.after hostOps1 _ (Proc.devRef .tc main_v35) = _
  after_results
  exact congrArg (fun a : S512x11008.Idx → EReal => shapeCast S8x64x11008 a shapeCasts_S512x11008_S8x64x11008)
    ((Pipeline.withArrays_arr spec0 launch0.win.arr_inj c _ _ 7).trans (final m c))

/-- THE RUN, read: every weakly fair execution of the kernel program ends with its result at the reshape of G and its
    arguments as they were. -/
theorem run : θ_run defs (onTc (τ := τ) (main (F := Ideal))) ⟨m, fun _ => 0, ρ⟩ (fun r => ∀ c : Dev nD,
      r.2.mem ((c.tc : Thread nD τ).loc main_v35) = (shapeCast S8x64x11008 (G m c) shapeCasts_S512x11008_S8x64x11008 : S8x64x11008.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v35 (Pipeline.mem_restRefs_of main_v35 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  A quantized linear layer with outlier columns, tiled over its output columns, against its plain reference.

  With x read as a [512, 4096] matrix and idx a list of 256 column indices (negative ones wrapped by 4096), both programs
  form: ao, the columns of x at idx; z, the matrix x with those columns zeroed; the row scales xs p = max(max_j |z (p, j)| / 127, 1e-8);
  and the quantized activations q = clip(round(z / xs), -128, 127). The result at (p, e) is

      ((∑ j < 4096, q (p, j) · w (e, j)) · xs p) · sc e + (∑ k < 256, ao (p, k) · wc (e, k)) + b e

  with w the integer weights read as reals, reshaped to [8, 64, 11008]. On the extended reals the two programs agree for
  every input, finite or not, because they apply the same operations in the same order:

  * The kernel zeroes columns by selecting 0 under a row of flags (the scatter of ones at idx into a row of zeros),
    the reference by scattering zeros into x at idx. Entry (p, e) of either is 0 when some index equals e and x (p, e)
    otherwise; an index outside [0, 4096) sets no flag and writes no zero; repeated indices write the same value
    (Proof/LibScatterSame.lean, Proof/LibZeroed.lean). The scales, the quantized matrix and the gathered columns are then
    the same host operations of the same matrix (Proof/HostSide.lean).
  * The kernel computes 256 output columns per grid point, both products contracting axis 1 of both operands into
    zero, from the rows 256 t + q of the weights; the reference contracts against the transposed weights. Each is the
    plain sum over the shared axis at the same coordinates (Proof/Body.lean, Proof/RefEntry.lean), and a change of
    float format or an integer read as a float at either width is the same extended real.
  * The 43 blocks tile the [512, 11008] array (column e in the block of point e / 256), so the array the call leaves
    is the reference's, and both programs end with the same reshape (Proof/Result.lean).

  No law of the extended reals beyond these readings is used, so the precondition is never opened. The three frames are
  the generated ones (the reference's is its generated run with the result dropped); the idealization rewrote nothing.
-/
import proofs.«131723_j27616639713534_1_alg».proof.Defs
import proofs.«131723_j27616639713534_1_alg».proof.Proof.Gen.Kernel
import proofs.«131723_j27616639713534_1_alg».proof.Proof.Gen.Kernel.Skeleton
import proofs.«131723_j27616639713534_1_alg».proof.Proof.Gen.Kernel.Launch
import proofs.«131723_j27616639713534_1_alg».proof.Proof.Gen.Kernel.Points
import proofs.«131723_j27616639713534_1_alg».proof.Proof.Gen.Kernel.Frame
import proofs.«131723_j27616639713534_1_alg».proof.Proof.Gen.KernelIdeal
import proofs.«131723_j27616639713534_1_alg».proof.Proof.Gen.KernelIdeal.Skeleton
import proofs.«131723_j27616639713534_1_alg».proof.Proof.Gen.KernelIdeal.Launch
import proofs.«131723_j27616639713534_1_alg».proof.Proof.Gen.KernelIdeal.Points
import proofs.«131723_j27616639713534_1_alg».proof.Proof.Gen.KernelIdeal.Frame
import proofs.«131723_j27616639713534_1_alg».proof.Proof.Gen.ReferenceIdeal
import proofs.«131723_j27616639713534_1_alg».proof.Proof.Gen.ReferenceIdeal.Run
import proofs.«131723_j27616639713534_1_alg».proof.Proof.Gen.ReferenceIdeal.Read
import proofs.«131723_j27616639713534_1_alg».proof.Proof.Gen.Pre_finite_inputs
import proofs.«131723_j27616639713534_1_alg».proof.Proof.Result
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end at the reshape of one [512, 11008] array: the kernel's
    by the blocks its grid points write, the reference's by its run, read at the kernel's arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v40_eq _ _ _ _ _ _).trans ?_
  rw [(hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
